-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S50000x64 : Shape := ⟨2, ![50000, 64]⟩
abbrev S128x128 : Shape := ⟨2, ![128, 128]⟩
abbrev S128 : Shape := ⟨1, ![128]⟩
abbrev S128x320 : Shape := ⟨2, ![128, 320]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x320 : S_.BroadcastsInDim S128x320 (![] : Fin 0 → Fin S128x320.rank)
  reducesTo_S128x320_S_d0_1 : S128x320.ReducesTo [0, 1] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x320 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x320 .f32 := Host.absf main_arg7
  let main_cst_10 : FVec F S_ .f32 := constant S_ .f32 0x7F800000#32
  let main_v30 : FVec F S128x320 .f32 := broadcastInDim S128x320 ![] bcast_S_S128x320 main_cst_10
  let main_v31 : IVec S128x320 1 := cmpf .olt main_v29 main_v30
  let main_c_11 : IVec S_ 1 := constantI S_ 1 1#1
  let main_v32 : IVec S_ 1 := (fun x v => Host.reduce IntOp.andi x v reducesTo_S128x320_S_d0_1 h_S_) main_v31 main_c_11
  let main_v33 : IVec S_ 1 := andi main_v28 main_v32
  fn_part2 (F := F) main_arg8 main_v33

def fn {F : FTy → Type} [FloatOps F] (main_arg0 : FVec F S1000000x128 .f32) (main_arg1 : IVec S1000000 32) (main_arg2 : FVec F S50000x64 .f32) (main_arg3 : FVec F S128x128 .f32) (main_arg4 : FVec F S128 .f32) (main_arg5 : FVec F S128x128 .f32) (main_arg6 : FVec F S128 .f32) (main_arg7 : FVec F S128x320 .f32) (main_arg8 : FVec F S128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S50000x64 .f32 := Host.absf main_arg2
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S1000000x128 : Shape := ⟨2, ![1000000, 128]⟩
abbrev S1000000 : Shape := ⟨1, ![1000000]⟩
abbrev S50000x64 : Shape := ⟨2, ![50000, 64]⟩
abbrev S128x128 : Shape := ⟨2, ![128, 128]⟩
abbrev S128 : Shape := ⟨1, ![128]⟩
abbrev S128x320 : Shape := ⟨2, ![128, 320]⟩
abbrev S1x128 : Shape := ⟨2, ![1, 128]⟩
abbrev S8000x128 : Shape := ⟨2, ![8000, 128]⟩
abbrev S_ : Shape := ⟨0, ![]⟩
abbrev S50000x128 : Shape := ⟨2, ![50000, 128]⟩
abbrev S1000000x1 : Shape := ⟨2, ![1000000, 1]⟩
abbrev S50000 : Shape := ⟨1, ![50000]⟩
abbrev S50000x1 : Shape := ⟨2, ![50000, 1]⟩
abbrev S128x64 : Shape := ⟨2, ![128, 64]⟩
abbrev S64x128 : Shape := ⟨2, ![64, 128]⟩
abbrev S2000x128 : Shape := ⟨2, ![2000, 128]⟩
abbrev S2000x64 : Shape := ⟨2, ![2000, 64]⟩

abbrev nBuf : Space → Nat
  | .hbm => 38
  | .vmem => 20
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S50000x64, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x320, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S1x128, .f32⟩
  | .hbm, ⟨12, _⟩ => ⟨S1x128, .f32⟩
  | .hbm, ⟨13, _⟩ => ⟨S1000000x128, .f32⟩
  | .hbm, ⟨14, _⟩ => ⟨S_, .f32⟩
  | .hbm, ⟨15, _⟩ => ⟨S50000x128, .f32⟩
  | .hbm, ⟨16, _⟩ => ⟨S1000000x1, .i32⟩
  | .hbm, ⟨17, _⟩ => ⟨S50000x128, .f32⟩
  | .hbm, ⟨18, _⟩ => ⟨S_, .f32⟩
  | .hbm, ⟨19, _⟩ => ⟨S1000000, .f32⟩
  | .hbm, ⟨20, _⟩ => ⟨S_, .f32⟩
  | .hbm, ⟨21, _⟩ => ⟨S50000, .f32⟩
  | .hbm, ⟨22, _⟩ => ⟨S1000000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S128x64, .f32⟩
  | .hbm, ⟨35, _⟩ => ⟨S64x128, .f32⟩
  | .hbm, ⟨36, _⟩ => ⟨S1x128, .f32⟩
  | .hbm, ⟨37, _⟩ => ⟨S50000x128, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S8000x128, .f32⟩
  | .local _ .vmem, ⟨7, _⟩ => ⟨S8000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x64, .f32⟩
  | .local _ .vmem, ⟨13, _⟩ => ⟨S2000x64, .f32⟩
  | .local _ .vmem, ⟨14, _⟩ => ⟨S128x128, .f32⟩
  | .local _ .vmem, ⟨15, _⟩ => ⟨S128x128, .f32⟩
  | .local _ .vmem, ⟨16, _⟩ => ⟨S64x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S128x128_S128x128_1_0 : S128x128.Transposes [1, 0] S128x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S50000x128 : S_.BroadcastsInDim S50000x128 (![] : Fin 0 → Fin S50000x128.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S128x320_S128x128_0_0 : S128x320.Slices ![0, 0] S128x128
  slices_S128x320_S128x128_0_128 : S128x320.Slices ![0, 128] S128x128
  slices_S128x320_S128x64_0_256 : S128x320.Slices ![0, 256] S128x64
  transposes_S128x64_S64x128_1_0 : S128x64.Transposes [1, 0] S64x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x64_S2000x64_0_0 : ∀ a, (![0, 0] : Fin 2 → Nat) a + S2000x64.size a ≤ S2000x64.size a
  h_S2000x64 : 0 < S2000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S2000x128 : S1x128.Broadcasts S2000x128
  dot_S8000x128_S128x128_S8000x128_1_0_0_1_n_n_wf : DotDims.WF S8000x128 S128x128 S8000x128 [1] [0] [0] [1] [] []
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  dot_S2000x128_S128x128_S2000x128_1_0_0_1_n_n_wf : DotDims.WF S2000x128 S128x128 S2000x128 [1] [0] [0] [1] [] []
  dot_S2000x64_S64x128_S2000x128_1_0_0_1_n_n_wf : DotDims.WF S2000x64 S64x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1000000x128.size a
  hwx0_0 : ∀ i : grid0.Coords, EltTy.bits .f32 = 32 ∨ (Rect.block (s := S1000000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S1000000x128.size a
  hwx0_5 : ∀ i : grid0.Coords, EltTy.bits .f32 = 32 ∨ (Rect.block (s := S1000000x128) S8000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S50000x64 : Shape := ⟨2, ![50000, 64]⟩
abbrev S128x128 : Shape := ⟨2, ![128, 128]⟩
abbrev S128 : Shape := ⟨1, ![128]⟩
abbrev S128x320 : Shape := ⟨2, ![128, 320]⟩
abbrev S1x128 : Shape := ⟨2, ![1, 128]⟩
abbrev S_ : Shape := ⟨0, ![]⟩
abbrev S50000x128 : Shape := ⟨2, ![50000, 128]⟩
abbrev S1000000x1 : Shape := ⟨2, ![1000000, 1]⟩
abbrev S50000 : Shape := ⟨1, ![50000]⟩
abbrev S50000x1 : Shape := ⟨2, ![50000, 1]⟩
abbrev S50000x320 : Shape := ⟨2, ![50000, 320]⟩
abbrev S320x128 : Shape := ⟨2, ![320, 128]⟩

abbrev nBuf : Space → Nat
  | .hbm => 53
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S50000x64, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x320, .f32⟩
  | .hbm, ⟨8, _⟩ => ⟨S128, .f32⟩
  | .hbm, ⟨9, _⟩ => ⟨S128x128, .f32⟩
  | .hbm, ⟨10, _⟩ => ⟨S1000000x128, .f32⟩
  | .hbm, ⟨11, _⟩ => ⟨S1x128, .f32⟩
  | .hbm, ⟨12, _⟩ => ⟨S1000000x128, .f32⟩
  | .hbm, ⟨13, _⟩ => ⟨S1000000x128, .f32⟩
  | .hbm, ⟨14, _⟩ => ⟨S128x128, .f32⟩
  | .hbm, ⟨15, _⟩ => ⟨S1000000x128, .f32⟩
  | .hbm, ⟨16, _⟩ => ⟨S1x128, .f32⟩
  | .hbm, ⟨17, _⟩ => ⟨S1000000x128, .f32⟩
  | .hbm, ⟨18, _⟩ => ⟨S1000000x128, .f32⟩
  | .hbm, ⟨19, _⟩ => ⟨S1000000x128, .f32⟩
  | .hbm, ⟨20, _⟩ => ⟨S1000000x128, .f32⟩
  | .hbm, ⟨21, _⟩ => ⟨S_, .f32⟩
  | .hbm, ⟨22, _⟩ => ⟨S1000000x128, .f32⟩
  | .hbm, ⟨23, _⟩ => ⟨S1000000x128, .f32⟩
  | .hbm, ⟨24, _⟩ => ⟨S_, .f32⟩
  | .hbm, ⟨25, _⟩ => ⟨S1000000x128, .f32⟩
  | .hbm, ⟨26, _⟩ => ⟨S1000000x128, .f32⟩
  | .hbm, ⟨27, _⟩ => ⟨S1000000x128, .f32⟩
  | .hbm, ⟨28, _⟩ => ⟨S_, .f32⟩
  | .hbm, ⟨29, _⟩ => ⟨S50000x128, .f32⟩
  | .hbm, ⟨30, _⟩ => ⟨S1000000x1, .i32⟩
  | .hbm, ⟨31, _⟩ => ⟨S50000x128, .f32⟩
  | .hbm, ⟨32, _⟩ => ⟨S_, .f32⟩
  | .hbm, ⟨33, _⟩ => ⟨S1000000, .f32⟩
  | .hbm, ⟨34, _⟩ => ⟨S_, .f32⟩
  | .hbm, ⟨35, _⟩ => ⟨S50000, .f32⟩
  | .hbm, ⟨36, _⟩ => ⟨S1000000x1, .i32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S50000x320, .f32⟩
  | .hbm, ⟨45, _⟩ => ⟨S320x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_cst : Ref sig .tc := ⟨.hbm, 50, rfl⟩
abbrev main_call0_v0 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S_S50000x128 : S_.BroadcastsInDim S50000x128 (![] : Fin 0 → Fin S50000x128.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x64_S50000x320_d1 : Shape.Concatenates [S50000x128, S50000x128, S50000x64] S50000x320 1
  transposes_S128x320_S320x128_1_0 : S128x320.Transposes [1, 0] S320x128
  bcast_S1x128_S50000x128_0_1 : S1x128.BroadcastsInDim S50000x128 (![0, 1] : Fin 2 → Fin S50000x128.rank)
  dot_S1000000x128_S128x128_S1000000x128_1_0_0_1_n_n_wf : DotDims.WF S1000000x128 S128x128 S1000000x128 [1] [0] [0] [1] [] []
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  dot_S50000x320_S320x128_S50000x128_1_0_0_1_n_n_wf : DotDims.WF S50000x320 S320x128 S50000x128 [1] [0] [0] [1] [] []

variable [Facts₀]

def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S50000x320_S320x128_S50000x128_1_0_0_1_n_n : DotDims S50000x320 S320x128 S50000x128 where
  lhsContracting := [1]
  rhsContracting := [0]
  lhsNonContracting := [0]
  rhsNonContracting := [1]
  lhsBatch := []
  rhsBatch := []
  wf := dot_S50000x320_S320x128_S50000x128_1_0_0_1_n_n_wf

class Facts : Prop extends Facts₀ where

variable [Facts]
-- ==== Proof.Spec.lean ====
/- The readout network's arithmetic on the extended reals, index by index, over literal shapes.

   An affine layer whose weight is stored with its input axis first reads, at row p and column q, the sum over k of
   x (p, k) · w (k, q) plus the bias row's entry q. The gated projection is one such layer times the logistic function
   of another. The readout is three partial products added in order, then the bias, then the larger of the result and
   zero. Each is stated for any number M of rows, so that one definition serves a block of rows and the whole array.

   The one law used later: a sum over 320 consecutive positions is the sum over the first 128, plus the next 128, plus
   the last 64. It holds in every commutative additive monoid, so on the extended reals it needs no finiteness. -/
import Idealize.ShloMosaic.PureOps.Ideal
import Idealize.ShloMosaic.Lib.ValueIdx
import Mathlib.Algebra.BigOperators.Fin

noncomputable section

namespace Cert.Readout

open Idealize.ShloMosaic Idealize.ShloMosaic.ValueIdx
open scoped BigOperators

/-- Row `p` of `x` against column `q` of `w`, plus entry `q` of the bias row. -/
def aff {M K N : Nat} (x : (⟨2, ![M, K]⟩ : Shape).Idx → EReal) (w : (⟨2, ![K, N]⟩ : Shape).Idx → EReal)
    (b : (⟨2, ![1, N]⟩ : Shape).Idx → EReal) (p : Fin M) (q : Fin N) : EReal :=
  (∑ k : Fin K, x (ix2 p k) * w (ix2 k q)) + b (ix2 (0 : Fin 1) q)

/-- The gated projection: an affine layer times the logistic function of a second affine layer. -/
def gated {M : Nat} (x : (⟨2, ![M, 128]⟩ : Shape).Idx → EReal)
    (w1 : (⟨2, ![128, 128]⟩ : Shape).Idx → EReal) (b1 : (⟨2, ![1, 128]⟩ : Shape).Idx → EReal)
    (w2 : (⟨2, ![128, 128]⟩ : Shape).Idx → EReal) (b2 : (⟨2, ![1, 128]⟩ : Shape).Idx → EReal) :
    (⟨2, ![M, 128]⟩ : Shape).Idx → EReal :=
  fun i => aff x w1 b1 (i 0) (i 1) * Ideal.logistic (aff x w2 b2 (i 0) (i 1))

theorem gated_ix2 {M : Nat} (x : (⟨2, ![M, 128]⟩ : Shape).Idx → EReal)
    (w1 : (⟨2, ![128, 128]⟩ : Shape).Idx → EReal) (b1 : (⟨2, ![1, 128]⟩ : Shape).Idx → EReal)
    (w2 : (⟨2, ![128, 128]⟩ : Shape).Idx → EReal) (b2 : (⟨2, ![1, 128]⟩ : Shape).Idx → EReal) (p : Fin M) (q : Fin 128) :
    gated x w1 b1 w2 b2 (ix2 p q) = aff x w1 b1 p q * Ideal.logistic (aff x w2 b2 p q) := rfl

/-- The gated projection reads its rows one at a time: if row `p` of `xb` is row `P p` of `X`, and the weights and
    bias rows agree entry by entry, then row `p` of the one projection is row `P p` of the other. -/
theorem gated_rows {M M' : Nat} (xb : (⟨2, ![M, 128]⟩ : Shape).Idx → EReal) (X : (⟨2, ![M', 128]⟩ : Shape).Idx → EReal)
    (P : Fin M → Fin M')
    (w1 w1' : (⟨2, ![128, 128]⟩ : Shape).Idx → EReal) (b1 b1' : (⟨2, ![1, 128]⟩ : Shape).Idx → EReal)
    (w2 w2' : (⟨2, ![128, 128]⟩ : Shape).Idx → EReal) (b2 b2' : (⟨2, ![1, 128]⟩ : Shape).Idx → EReal)
    (hx : ∀ p k, xb (ix2 p k) = X (ix2 (P p) k))
    (hw1 : ∀ k q, w1 (ix2 k q) = w1' (ix2 k q)) (hb1 : ∀ q, b1 (ix2 (0 : Fin 1) q) = b1' (ix2 (0 : Fin 1) q))
    (hw2 : ∀ k q, w2 (ix2 k q) = w2' (ix2 k q)) (hb2 : ∀ q, b2 (ix2 (0 : Fin 1) q) = b2' (ix2 (0 : Fin 1) q))
    (p : Fin M) (q : Fin 128) :
    gated xb w1 b1 w2 b2 (ix2 p q) = gated X w1' b1' w2' b2' (ix2 (P p) q) := by
  rw [gated_ix2, gated_ix2]
  unfold aff
  simp only [hx, hw1, hb1, hw2, hb2]

/-- The readout at row `p`, column `q`: the three partial products in order, the bias, the clamp at zero. -/
def readoutAt {M : Nat} (z1 z2 : (⟨2, ![M, 128]⟩ : Shape).Idx → EReal) (g : (⟨2, ![M, 64]⟩ : Shape).Idx → EReal)
    (wa wb : (⟨2, ![128, 128]⟩ : Shape).Idx → EReal) (wc : (⟨2, ![64, 128]⟩ : Shape).Idx → EReal)
    (b : (⟨2, ![1, 128]⟩ : Shape).Idx → EReal) (p : Fin M) (q : Fin 128) : EReal :=
  max ((((∑ k : Fin 128, z1 (ix2 p k) * wa (ix2 k q)) + (∑ k : Fin 128, z2 (ix2 p k) * wb (ix2 k q)))
      + (∑ k : Fin 64, g (ix2 p k) * wc (ix2 k q))) + b (ix2 (0 : Fin 1) q)) (Ideal.ofBits .f32 0x00000000#32)

/-- The readout as an array of `M` rows. -/
def readout {M : Nat} (z1 z2 : (⟨2, ![M, 128]⟩ : Shape).Idx → EReal) (g : (⟨2, ![M, 64]⟩ : Shape).Idx → EReal)
    (wa wb : (⟨2, ![128, 128]⟩ : Shape).Idx → EReal) (wc : (⟨2, ![64, 128]⟩ : Shape).Idx → EReal)
    (b : (⟨2, ![1, 128]⟩ : Shape).Idx → EReal) : (⟨2, ![M, 128]⟩ : Shape).Idx → EReal :=
  fun i => readoutAt z1 z2 g wa wb wc b (i 0) (i 1)

theorem readout_ix2 {M : Nat} (z1 z2 : (⟨2, ![M, 128]⟩ : Shape).Idx → EReal) (g : (⟨2, ![M, 64]⟩ : Shape).Idx → EReal)
    (wa wb : (⟨2, ![128, 128]⟩ : Shape).Idx → EReal) (wc : (⟨2, ![64, 128]⟩ : Shape).Idx → EReal)
    (b : (⟨2, ![1, 128]⟩ : Shape).Idx → EReal) (p : Fin M) (q : Fin 128) :
    readout z1 z2 g wa wb wc b (ix2 p q) = readoutAt z1 z2 g wa wb wc b p q := rfl

/-- The readout reads its rows one at a time, like the gated projection. -/
theorem readout_rows {M M' : Nat} (z1b z2b : (⟨2, ![M, 128]⟩ : Shape).Idx → EReal) (gb : (⟨2, ![M, 64]⟩ : Shape).Idx → EReal)
    (Z1 Z2 : (⟨2, ![M', 128]⟩ : Shape).Idx → EReal) (G : (⟨2, ![M', 64]⟩ : Shape).Idx → EReal) (P : Fin M → Fin M')
    (wa wa' wb wb' : (⟨2, ![128, 128]⟩ : Shape).Idx → EReal) (wc wc' : (⟨2, ![64, 128]⟩ : Shape).Idx → EReal)
    (b b' : (⟨2, ![1, 128]⟩ : Shape).Idx → EReal)
    (h1 : ∀ p k, z1b (ix2 p k) = Z1 (ix2 (P p) k)) (h2 : ∀ p k, z2b (ix2 p k) = Z2 (ix2 (P p) k))
    (hg : ∀ p k, gb (ix2 p k) = G (ix2 (P p) k))
    (ha : ∀ k q, wa (ix2 k q) = wa' (ix2 k q)) (hb : ∀ k q, wb (ix2 k q) = wb' (ix2 k q))
    (hc : ∀ k q, wc (ix2 k q) = wc' (ix2 k q)) (hbias : ∀ q, b (ix2 (0 : Fin 1) q) = b' (ix2 (0 : Fin 1) q))
    (p : Fin M) (q : Fin 128) :
    readout z1b z2b gb wa wb wc b (ix2 p q) = readout Z1 Z2 G wa' wb' wc' b' (ix2 (P p) q) := by
  rw [readout_ix2, readout_ix2]
  unfold readoutAt
  simp only [h1, h2, hg, ha, hb, hc, hbias]

/-! ## A sum over 320 positions in three runs -/

/-- Position `k` of the first run of 128. -/
def colA (k : Fin 128) : Fin 320 := ⟨k.val, by have := k.isLt; omega⟩
/-- Position `k` of the second run of 128. -/
def colB (k : Fin 128) : Fin 320 := ⟨128 + k.val, by have := k.isLt; omega⟩
/-- Position `k` of the last run of 64. -/
def colC (k : Fin 64) : Fin 320 := ⟨256 + k.val, by have := k.isLt; omega⟩

/-- A sum over 320 positions is the sum over its first 128, its next 128 and its last 64. -/
theorem sum_320 {A : Type*} [AddCommMonoid A] (f : Fin 320 → A) :
    ∑ k : Fin 320, f k = (∑ k : Fin 128, f (colA k) + ∑ k : Fin 128, f (colB k)) + ∑ k : Fin 64, f (colC k) := by
  have h1 := Fin.sum_univ_add (M := A) (a := 128 + 128) (b := 64) f
  have h2 := Fin.sum_univ_add (M := A) (a := 128) (b := 128) (fun i => f (Fin.castAdd 64 i))
  rw [h2] at h1
  exact h1

end Cert.Readout

end
-- ==== Proof.OutDef.lean ====
/- The network as the kernel program computes it, as one function of its nine arguments.

   `hidden` is the gated projection of the input, with the two weights transposed and the two biases as rows.
   `segSum` adds the rows of an array into zeros at their segment ids; `segMean` divides those sums by the larger of
   each segment's size and one (the sizes are the same scatter-add of ones). `out` is the readout of the sums, the
   means and the per-segment features against the three column ranges of the last weight, transposed, and the last
   bias as a row. The scatter-adds and the quotient are carried as they are printed: the reference applies the very
   same operations, so nothing opens them. -/
import proofs.«135154_j30365418783528_1_alg».proof.KernelIdeal
import proofs.«135154_j30365418783528_1_alg».proof.Proof.Gen.KernelIdeal
import proofs.«135154_j30365418783528_1_alg».proof.Proof.Spec
import Idealize.ShloMosaic.PureOps.Ideal

noncomputable section

namespace Cert.KernelIdeal.Out

open Cert.KernelIdeal Cert.KernelIdeal.Gen Idealize.ShloMosaic Idealize.ShloMosaic.TcCoe Idealize.SL.Sem

/-- The gated projection of the input: weights transposed, biases as rows. -/
def hidden (x : (⟨S1000000x128, .f32⟩ : BufTy).Contents (Elt Ideal)) (W1 : (⟨S128x128, .f32⟩ : BufTy).Contents (Elt Ideal)) (b1 : (⟨S128, .f32⟩ : BufTy).Contents (Elt Ideal))
    (W2 : (⟨S128x128, .f32⟩ : BufTy).Contents (Elt Ideal)) (b2 : (⟨S128, .f32⟩ : BufTy).Contents (Elt Ideal)) : (⟨S1000000x128, .f32⟩ : BufTy).Contents (Elt Ideal) :=
  Cert.Readout.gated x (transpose S128x128 [1, 0] W1 transposes_S128x128_S128x128_1_0) (shapeCast S1x128 b1 shapeCasts_S128_S1x128)
    (transpose S128x128 [1, 0] W2 transposes_S128x128_S128x128_1_0) (shapeCast S1x128 b2 shapeCasts_S128_S1x128)

/-- The rows of `h` added into zeros at their segment ids. -/
def segSum (idx : (⟨S1000000, .i32⟩ : BufTy).Contents (Elt Ideal)) (h : (⟨S1000000x128, .f32⟩ : BufTy).Contents (Elt Ideal)) : (⟨S50000x128, .f32⟩ : BufTy).Contents (Elt Ideal) :=
  Host.scatterAdd (F := Ideal) scatter_S50000x128_S1000000x1_S1000000x128_1_0_0_1
    (broadcastInDim S50000x128 ![] bcast_S_S50000x128 (constant (F := Ideal) S_ .f32 0x00000000#32))
    (broadcastInDim S1000000x1 ![0] bcast_S1000000_S1000000x1_0 idx) h

/-- The segment sums over the larger of each segment's size and one. -/
def segMean (idx : (⟨S1000000, .i32⟩ : BufTy).Contents (Elt Ideal)) (h : (⟨S1000000x128, .f32⟩ : BufTy).Contents (Elt Ideal)) : (⟨S50000x128, .f32⟩ : BufTy).Contents (Elt Ideal) :=
  Host.divf (F := Ideal) (segSum idx h)
    (broadcastInDim S50000x128 ![0, 1] bcast_S50000x1_S50000x128_0_1 (broadcastInDim S50000x1 ![0] bcast_S50000_S50000x1_0
      (maximumf (F := Ideal)
        (Host.scatterAdd (F := Ideal) scatter_S50000_S1000000x1_S1000000_n_0_0_1
          (broadcastInDim S50000 ![] bcast_S_S50000 (constant (F := Ideal) S_ .f32 0x00000000#32))
          (broadcastInDim S1000000x1 ![0] bcast_S1000000_S1000000x1_0 idx)
          (broadcastInDim S1000000 ![] bcast_S_S1000000 (constant (F := Ideal) S_ .f32 0x3F800000#32)))
        (broadcastInDim S50000 ![] bcast_S_S50000 (constant (F := Ideal) S_ .f32 0x3F800000#32)))))

/-- The readout of sums, means and features against the last weight's three column ranges and the last bias. -/
def readoutOf (z1 z2 : (⟨S50000x128, .f32⟩ : BufTy).Contents (Elt Ideal)) (g : (⟨S50000x64, .f32⟩ : BufTy).Contents (Elt Ideal)) (W3 : (⟨S128x320, .f32⟩ : BufTy).Contents (Elt Ideal))
    (b3 : (⟨S128, .f32⟩ : BufTy).Contents (Elt Ideal)) : (⟨S50000x128, .f32⟩ : BufTy).Contents (Elt Ideal) :=
  Cert.Readout.readout z1 z2 g
    (transpose S128x128 [1, 0] (extractStridedSlice S128x128 ![0, 0] W3 slices_S128x320_S128x128_0_0) transposes_S128x128_S128x128_1_0)
    (transpose S128x128 [1, 0] (extractStridedSlice S128x128 ![0, 128] W3 slices_S128x320_S128x128_0_128) transposes_S128x128_S128x128_1_0)
    (transpose S64x128 [1, 0] (extractStridedSlice S128x64 ![0, 256] W3 slices_S128x320_S128x64_0_256) transposes_S128x64_S64x128_1_0)
    (shapeCast S1x128 b3 shapeCasts_S128_S1x128)

/-- The whole network, as the kernel program computes it. -/
def out (x : (⟨S1000000x128, .f32⟩ : BufTy).Contents (Elt Ideal)) (idx : (⟨S1000000, .i32⟩ : BufTy).Contents (Elt Ideal)) (g : (⟨S50000x64, .f32⟩ : BufTy).Contents (Elt Ideal))
    (W1 : (⟨S128x128, .f32⟩ : BufTy).Contents (Elt Ideal)) (b1 : (⟨S128, .f32⟩ : BufTy).Contents (Elt Ideal)) (W2 : (⟨S128x128, .f32⟩ : BufTy).Contents (Elt Ideal)) (b2 : (⟨S128, .f32⟩ : BufTy).Contents (Elt Ideal))
    (W3 : (⟨S128x320, .f32⟩ : BufTy).Contents (Elt Ideal)) (b3 : (⟨S128, .f32⟩ : BufTy).Contents (Elt Ideal)) : (⟨S50000x128, .f32⟩ : BufTy).Contents (Elt Ideal) :=
  readoutOf (segSum idx (hidden x W1 b1 W2 b2)) (segMean idx (hidden x W1 b1 W2 b2)) g W3 b3

end Cert.KernelIdeal.Out

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.GatedBody.lean ====
/- The gated kernel's body, as one function of the blocks it loads.

   The body multiplies a block of 8000 rows by two 128 × 128 weights (each product into a zero accumulator, so each is
   the plain sum over the contracted coordinate), adds to each product a bias row broadcast over the rows, and
   multiplies the first result by the logistic function of the second. The changes of float format and the casts to
   the same shape are the identity on the extended reals. So the stored value is the gated projection of the block. -/
import proofs.«135154_j30365418783528_1_alg».proof.Proof.Gen.KernelIdeal.Skeleton
import proofs.«135154_j30365418783528_1_alg».proof.Proof.Spec
import proofs.«135154_j30365418783528_1_alg».proof.Proof.LibDotPlain
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Idealize.ShloMosaic.TcCoe
open scoped BigOperators

/-- A block of 8000 rows times a 128 × 128 weight into the zero accumulator, at row `p` and column `q`. -/
theorem matmul_rows8000 (l : FVec Ideal S8000x128 .bf16) (r : FVec Ideal S128x128 .bf16) (p : Fin 8000) (q : Fin 128) :
    matmul dot_S8000x128_S128x128_S8000x128_1_0_0_1_n_n none l r (constant S8000x128 .f32 0x00000000#32) (ix2 p q)
      = ∑ k : Fin 128, l (ix2 p k) * r (ix2 k q) :=
  Cert.DotPlain.matmul_zero_rows_cols dot_S8000x128_S128x128_S8000x128_1_0_0_1_n_n rfl rfl rfl rfl rfl rfl none l r p q

/-- The value the gated kernel stores is the gated projection of the block of rows it loaded. -/
theorem gated_body (x0 : Vec Ideal S8000x128 .f32) (w1 : Vec Ideal S128x128 .f32) (w2 : Vec Ideal S128x128 .f32)
    (b1 : Vec Ideal S1x128 .f32) (b2 : Vec Ideal S1x128 .f32) :
    k0_pay1 (F := Ideal) x0 w1 w2 b1 b2 = Cert.Readout.gated x0 w1 b1 w2 b2 := by
  funext j
  obtain ⟨p, q, rfl⟩ : ∃ (p : Fin 8000) (q : Fin 128), j = ix2 p q := ⟨j 0, j 1, eq_ix2 j⟩
  rw [Cert.Readout.gated_ix2]
  unfold k0_pay1 Cert.Readout.aff
  show (matmul (F := Ideal) _ none _ _ _ (ix2 p q) + broadcastTo S8000x128 _ _ (ix2 p q))
      * Ideal.logistic (matmul (F := Ideal) _ none _ _ _ (ix2 p q) + broadcastTo S8000x128 _ _ (ix2 p q)) = _
  rw [matmul_rows8000, matmul_rows8000, broadcastTo_1b_ab_apply, broadcastTo_1b_ab_apply]
  simp only [shapeCast_self, truncf_apply]

end Cert.KernelIdeal.Body

end
-- ==== Proof.Region0.lean ====
/- The first kernel region: after its 125 grid points the output array is the gated projection of the arrays the
   region finds, whatever those arrays hold.

   Grid point t loads rows 8000·t … 8000·t + 7999 of the input and the whole of each weight and bias row, and writes
   back the gated projection of those rows into the same rows of the output. The gated projection reads its rows one
   at a time, so what point t writes is block t of the gated projection of the whole input. The 125 blocks cover all
   1000000 rows (row r lies in block r / 8000), so the output array ends holding that projection. -/
import proofs.«135154_j30365418783528_1_alg».proof.Proof.Gen.KernelIdeal.Frame
import proofs.«135154_j30365418783528_1_alg».proof.Proof.GatedBody
import Idealize.ShloMosaic.Lib.Pipeline.Value

noncomputable section

namespace Cert.KernelIdeal.Region0

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input's and the output's block index is the grid point on the row
    axis and zero on the column axis; every weight and bias row is one block at index zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The array row that row `p` of block `t` is. -/
def row (t : Fin cfg0.N) (p : Fin 8000) : Fin 1000000 :=
  ⟨8000 * t.val + p.val, by have ht : t.val < 125 := t.isLt; have := p.isLt; omega⟩

/-- Row `p` of the input's block at point `t` is row `8000·t + p` of the input array. -/
theorem x_blk (c : Dev nD) (t : Fin cfg0.N) (p : Fin 8000) (k : Fin 128) :
    iblk0 V c 0 t (ix2 p k) = V c main_arg0 (ix2 (row t p) k) := by
  show V c main_arg0 (((cfg0.win 0).blk t).view.emb (ix2 p k)) = _
  refine congrArg _ (funext fun a => Fin.ext ?_)
  obtain ⟨e0, e1, -⟩ := idx_facts t
  match a with
  | ⟨0, _⟩ => show win0_0.index t (0 : Fin 2) * 8000 + 1 * p.val = 8000 * t.val + p.val; omega
  | ⟨1, _⟩ => show win0_0.index t (1 : Fin 2) * 128 + 1 * k.val = k.val; omega

/-- The first weight's block at any point is the whole weight. -/
theorem w1_blk (c : Dev nD) (t : Fin cfg0.N) (k q : Fin 128) : iblk0 V c 1 t (ix2 k q) = V c main_v0 (ix2 k q) := by
  show V c main_v0 (((cfg0.win 1).blk t).view.emb (ix2 k q)) = _
  refine congrArg _ (funext fun a => Fin.ext ?_)
  obtain ⟨-, -, e0, e1, -⟩ := idx_facts t
  match a with
  | ⟨0, _⟩ => show win0_1.index t (0 : Fin 2) * 128 + 1 * k.val = k.val; omega
  | ⟨1, _⟩ => show win0_1.index t (1 : Fin 2) * 128 + 1 * q.val = q.val; omega

/-- The first bias row's block at any point is the whole row. -/
theorem b1_blk (c : Dev nD) (t : Fin cfg0.N) (q : Fin 128) :
    iblk0 V c 2 t (ix2 (0 : Fin 1) q) = V c main_v2 (ix2 (0 : Fin 1) q) := by
  show V c main_v2 (((cfg0.win 2).blk t).view.emb (ix2 (0 : Fin 1) q)) = _
  refine congrArg _ (funext fun a => Fin.ext ?_)
  obtain ⟨-, -, -, -, e0, e1, -⟩ := idx_facts t
  match a with
  | ⟨0, _⟩ => show win0_2.index t (0 : Fin 2) * 1 + 1 * 0 = 0; omega
  | ⟨1, _⟩ => show win0_2.index t (1 : Fin 2) * 128 + 1 * q.val = q.val; omega

/-- The second weight's block at any point is the whole weight. -/
theorem w2_blk (c : Dev nD) (t : Fin cfg0.N) (k q : Fin 128) : iblk0 V c 3 t (ix2 k q) = V c main_v1 (ix2 k q) := by
  show V c main_v1 (((cfg0.win 3).blk t).view.emb (ix2 k q)) = _
  refine congrArg _ (funext fun a => Fin.ext ?_)
  obtain ⟨-, -, -, -, -, -, e0, e1, -⟩ := idx_facts t
  match a with
  | ⟨0, _⟩ => show win0_3.index t (0 : Fin 2) * 128 + 1 * k.val = k.val; omega
  | ⟨1, _⟩ => show win0_3.index t (1 : Fin 2) * 128 + 1 * q.val = q.val; omega

/-- The second bias row's block at any point is the whole row. -/
theorem b2_blk (c : Dev nD) (t : Fin cfg0.N) (q : Fin 128) :
    iblk0 V c 4 t (ix2 (0 : Fin 1) q) = V c main_v3 (ix2 (0 : Fin 1) q) := by
  show V c main_v3 (((cfg0.win 4).blk t).view.emb (ix2 (0 : Fin 1) q)) = _
  refine congrArg _ (funext fun a => Fin.ext ?_)
  obtain ⟨-, -, -, -, -, -, -, -, e0, e1, -⟩ := idx_facts t
  match a with
  | ⟨0, _⟩ => show win0_4.index t (0 : Fin 2) * 1 + 1 * 0 = 0; omega
  | ⟨1, _⟩ => show win0_4.index t (1 : Fin 2) * 128 + 1 * q.val = q.val; omega

/-- Entry (p, q) of the output's block at point `t` sits at (8000·t + p, q) of the output array. -/
theorem out_emb (t : Fin cfg0.N) (p : Fin 8000) (q : Fin 128) :
    ((cfg0.win 5).blk t).view.emb (ix2 p q) = ix2 (row t p) q := by
  refine funext fun a => Fin.ext ?_
  obtain ⟨-, -, -, -, -, -, -, -, -, -, e0, e1⟩ := idx_facts t
  match a with
  | ⟨0, _⟩ => show win0_5.index t (0 : Fin 2) * 8000 + 1 * p.val = 8000 * t.val + p.val; omega
  | ⟨1, _⟩ => show win0_5.index t (1 : Fin 2) * 128 + 1 * q.val = q.val; omega

/-- What point `t` writes back is block `t` of the gated projection of the arrays the region finds. -/
theorem flushed_eq (c : Dev nD) (t : Fin cfg0.N) :
    (dat0 V c).flushed 5 t = ((cfg0.win 5).blk t).view.read (Elt Ideal)
      (Cert.Readout.gated (V c main_arg0) (V c main_v0) (V c main_v2) (V c main_v1) (V c main_v3)) := by
  show (cfg0.win 5).cut (grid0.coords t) ((dat0 V c).after 5 t) = _
  rw [after0_5]
  unfold out0_5
  rw [View.canon_unit_zero hz]
  simp only [View.ld_unit_zero (S := S8000x128) hz, View.ld_unit_zero (S := S128x128) hz, View.ld_unit_zero (S := S1x128) hz]
  rw [Body.gated_body]
  funext j
  obtain ⟨p, q, rfl⟩ : ∃ (p : Fin 8000) (q : Fin 128), j = ix2 p q := ⟨j 0, j 1, eq_ix2 j⟩
  show Cert.Readout.gated (M := 8000) (iblk0 V c 0 t) (iblk0 V c 1 t) (iblk0 V c 2 t) (iblk0 V c 3 t) (iblk0 V c 4 t) (ix2 p q)
    = Cert.Readout.gated (M := 1000000) (V c main_arg0) (V c main_v0) (V c main_v2) (V c main_v1) (V c main_v3)
        (((cfg0.win 5).blk t).view.emb (ix2 p q))
  rw [out_emb t p q]
  exact Cert.Readout.gated_rows (M := 8000) (M' := 1000000) _ _ (row t) _ _ _ _ _ _ _ _
    (x_blk V c t) (w1_blk V c t) (b1_blk V c t) (w2_blk V c t) (b2_blk V c t) p q

/-- An index of the output array is in point `t`'s block iff each coordinate is in the block's range on its axis. -/
theorem mem_blk (t : Fin cfg0.N) (i : S1000000x128.Idx) :
    i ∈ ((cfg0.win 5).blk t).view.set ↔ ∀ a : Fin 2, win0_5.index t a * S8000x128.size a ≤ (i a).val
      ∧ (i a).val < win0_5.index t a * S8000x128.size a + S8000x128.size a := by
  show i ∈ ((View.whole main_v4).slice (win0_5.rect t)).set ↔ _
  rw [View.set_slice_whole, Rect.mem_set_unit]
  exact Iff.rfl

/-- Every index of the output array is in some point's block: row r is in block r / 8000. -/
theorem cover (i : S1000000x128.Idx) :
    ∃ t : Fin cfg0.N, (cfg0.win 5).flush t = true ∧ i ∈ ((cfg0.win 5).blk t).view.set := by
  have hi0 : (i 0).val < 1000000 := (i 0).isLt
  have hi1 : (i 1).val < 128 := (i 1).isLt
  have ht : (i 0).val / 8000 < 125 := by omega
  refine ⟨⟨(i 0).val / 8000, ht⟩, flush0_5 _, ?_⟩
  rw [mem_blk]
  obtain ⟨-, -, -, -, -, -, -, -, -, -, e0, e1⟩ := idx_facts ⟨(i 0).val / 8000, ht⟩
  have e0' : win0_5.index ⟨(i 0).val / 8000, ht⟩ (0 : Fin 2) = (i 0).val / 8000 := e0
  intro a
  match a with
  | ⟨0, _⟩ =>
    show win0_5.index ⟨(i 0).val / 8000, ht⟩ (0 : Fin 2) * 8000 ≤ (i 0).val
      ∧ (i 0).val < win0_5.index ⟨(i 0).val / 8000, ht⟩ (0 : Fin 2) * 8000 + 8000
    omega
  | ⟨1, _⟩ =>
    show win0_5.index ⟨(i 0).val / 8000, ht⟩ (1 : Fin 2) * 128 ≤ (i 1).val
      ∧ (i 1).val < win0_5.index ⟨(i 0).val / 8000, ht⟩ (1 : Fin 2) * 128 + 128
    omega

/-- After the region the output array is the gated projection of the arrays the region found. -/
theorem result (c : Dev nD) :
    (dat0 V c).arrAt 5 cfg0.N
      = Cert.Readout.gated (V c main_arg0) (V c main_v0) (V c main_v2) (V c main_v1) (V c main_v3) :=
  (dat0 V c).arrAt_eq_of_cover 5 _ (fun t _ => flushed_eq V c t) cover

end Cert.KernelIdeal.Region0

end
-- ==== Proof.ReadoutBody.lean ====
/- The readout kernel's body, as one function of the blocks it loads.

   The body multiplies three blocks of 2000 rows (two of width 128, one of width 64) each by its own weight, every
   product into a zero accumulator and so the plain sum over the contracted coordinate; adds the three products in
   order, then a bias row broadcast over the rows; and keeps the larger of the result and zero. The changes of float
   format and the casts to the same shape are the identity on the extended reals. -/
import proofs.«135154_j30365418783528_1_alg».proof.Proof.Gen.KernelIdeal.Skeleton
import proofs.«135154_j30365418783528_1_alg».proof.Proof.Spec
import proofs.«135154_j30365418783528_1_alg».proof.Proof.LibDotPlain
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Idealize.ShloMosaic.TcCoe
open scoped BigOperators

/-- A block of 2000 rows of width 128 times a 128 × 128 weight into the zero accumulator, at row `p`, column `q`. -/
theorem matmul_rows2000 (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ k : Fin 128, l (ix2 p k) * r (ix2 k q) :=
  Cert.DotPlain.matmul_zero_rows_cols dot_S2000x128_S128x128_S2000x128_1_0_0_1_n_n rfl rfl rfl rfl rfl rfl none l r p q

/-- A block of 2000 rows of width 64 times a 64 × 128 weight into the zero accumulator, at row `p`, column `q`. -/
theorem matmul_rows2000_64 (l : FVec Ideal S2000x64 .bf16) (r : FVec Ideal S64x128 .bf16) (p : Fin 2000) (q : Fin 128) :
    matmul dot_S2000x64_S64x128_S2000x128_1_0_0_1_n_n none l r (constant S2000x128 .f32 0x00000000#32) (ix2 p q)
      = ∑ k : Fin 64, l (ix2 p k) * r (ix2 k q) :=
  Cert.DotPlain.matmul_zero_rows_cols dot_S2000x64_S64x128_S2000x128_1_0_0_1_n_n rfl rfl rfl rfl rfl rfl none l r p q

/-- The value the readout kernel stores is the readout of the blocks of rows it loaded. -/
theorem readout_body (z1 z2 : Vec Ideal S2000x128 .f32) (g : Vec Ideal S2000x64 .f32)
    (wa wb : Vec Ideal S128x128 .f32) (wc : Vec Ideal S64x128 .f32) (b : Vec Ideal S1x128 .f32) :
    k1_pay1 (F := Ideal) z1 z2 g wa wb wc b = Cert.Readout.readout z1 z2 g wa wb wc b := by
  funext j
  obtain ⟨p, q, rfl⟩ : ∃ (p : Fin 2000) (q : Fin 128), j = ix2 p q := ⟨j 0, j 1, eq_ix2 j⟩
  rw [Cert.Readout.readout_ix2]
  unfold k1_pay1 Cert.Readout.readoutAt
  show max ((((matmul (F := Ideal) _ none _ _ _ (ix2 p q) + matmul (F := Ideal) _ none _ _ _ (ix2 p q))
      + matmul (F := Ideal) _ none _ _ _ (ix2 p q)) + broadcastTo S2000x128 _ _ (ix2 p q))) (Ideal.ofBits .f32 0x00000000#32) = _
  rw [matmul_rows2000, matmul_rows2000, matmul_rows2000_64, broadcastTo_1b_ab_apply]
  simp only [shapeCast_self, truncf_apply]

end Cert.KernelIdeal.Body

end
-- ==== Proof.Region1.lean ====
/- The second kernel region: after its 25 grid points the output array is the readout of the arrays the region
   finds, whatever those arrays hold.

   Grid point t loads rows 2000·t … 2000·t + 1999 of the three row-wise inputs and the whole of each weight and of
   the bias row, and writes back the readout of those rows into the same rows of the output. The readout reads its
   rows one at a time, so what point t writes is block t of the readout of the whole inputs. The 25 blocks cover all
   50000 rows (row r lies in block r / 2000), so the output array ends holding that readout. -/
import proofs.«135154_j30365418783528_1_alg».proof.Proof.Gen.KernelIdeal.Frame
import proofs.«135154_j30365418783528_1_alg».proof.Proof.ReadoutBody
import Idealize.ShloMosaic.Lib.Pipeline.Value

noncomputable section

namespace Cert.KernelIdeal.Region1

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: each row-wise input's and the output's block index is the grid point on
    the row axis and zero on the column axis; every weight and the bias row is one block at index zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The array row that row `p` of block `t` is. -/
def row (t : Fin cfg1.N) (p : Fin 2000) : Fin 50000 :=
  ⟨2000 * t.val + p.val, by have ht : t.val < 25 := t.isLt; have := p.isLt; omega⟩

/-- Row `p` of the first input's block at point `t` is row `2000·t + p` of that array. -/
theorem z1_blk (c : Dev nD) (t : Fin cfg1.N) (p : Fin 2000) (k : Fin 128) :
    iblk1 V c 0 t (ix2 p k) = V c main_v7 (ix2 (row t p) k) := by
  show V c main_v7 (((cfg1.win 0).blk t).view.emb (ix2 p k)) = _
  refine congrArg _ (funext fun a => Fin.ext ?_)
  obtain ⟨e0, e1, -⟩ := idx_facts t
  match a with
  | ⟨0, _⟩ => show win1_0.index t (0 : Fin 2) * 2000 + 1 * p.val = 2000 * t.val + p.val; omega
  | ⟨1, _⟩ => show win1_0.index t (1 : Fin 2) * 128 + 1 * k.val = k.val; omega

/-- The same for the second input. -/
theorem z2_blk (c : Dev nD) (t : Fin cfg1.N) (p : Fin 2000) (k : Fin 128) :
    iblk1 V c 1 t (ix2 p k) = V c main_v16 (ix2 (row t p) k) := by
  show V c main_v16 (((cfg1.win 1).blk t).view.emb (ix2 p k)) = _
  refine congrArg _ (funext fun a => Fin.ext ?_)
  obtain ⟨-, -, e0, e1, -⟩ := idx_facts t
  match a with
  | ⟨0, _⟩ => show win1_1.index t (0 : Fin 2) * 2000 + 1 * p.val = 2000 * t.val + p.val; omega
  | ⟨1, _⟩ => show win1_1.index t (1 : Fin 2) * 128 + 1 * k.val = k.val; omega

/-- The same for the third input, of width 64. -/
theorem g_blk (c : Dev nD) (t : Fin cfg1.N) (p : Fin 2000) (k : Fin 64) :
    iblk1 V c 2 t (ix2 p k) = V c main_arg2 (ix2 (row t p) k) := by
  show V c main_arg2 (((cfg1.win 2).blk t).view.emb (ix2 p k)) = _
  refine congrArg _ (funext fun a => Fin.ext ?_)
  obtain ⟨-, -, -, -, e0, e1, -⟩ := idx_facts t
  match a with
  | ⟨0, _⟩ => show win1_2.index t (0 : Fin 2) * 2000 + 1 * p.val = 2000 * t.val + p.val; omega
  | ⟨1, _⟩ => show win1_2.index t (1 : Fin 2) * 64 + 1 * k.val = k.val; omega

/-- The first weight's block at any point is the whole weight. -/
theorem wa_blk (c : Dev nD) (t : Fin cfg1.N) (k q : Fin 128) : iblk1 V c 3 t (ix2 k q) = V c main_v18 (ix2 k q) := by
  show V c main_v18 (((cfg1.win 3).blk t).view.emb (ix2 k q)) = _
  refine congrArg _ (funext fun a => Fin.ext ?_)
  obtain ⟨-, -, -, -, -, -, e0, e1, -⟩ := idx_facts t
  match a with
  | ⟨0, _⟩ => show win1_3.index t (0 : Fin 2) * 128 + 1 * k.val = k.val; omega
  | ⟨1, _⟩ => show win1_3.index t (1 : Fin 2) * 128 + 1 * q.val = q.val; omega

/-- The second weight's block at any point is the whole weight. -/
theorem wb_blk (c : Dev nD) (t : Fin cfg1.N) (k q : Fin 128) : iblk1 V c 4 t (ix2 k q) = V c main_v20 (ix2 k q) := by
  show V c main_v20 (((cfg1.win 4).blk t).view.emb (ix2 k q)) = _
  refine congrArg _ (funext fun a => Fin.ext ?_)
  obtain ⟨-, -, -, -, -, -, -, -, e0, e1, -⟩ := idx_facts t
  match a with
  | ⟨0, _⟩ => show win1_4.index t (0 : Fin 2) * 128 + 1 * k.val = k.val; omega
  | ⟨1, _⟩ => show win1_4.index t (1 : Fin 2) * 128 + 1 * q.val = q.val; omega

/-- The third weight's block at any point is the whole weight. -/
theorem wc_blk (c : Dev nD) (t : Fin cfg1.N) (k : Fin 64) (q : Fin 128) :
    iblk1 V c 5 t (ix2 k q) = V c main_v22 (ix2 k q) := by
  show V c main_v22 (((cfg1.win 5).blk t).view.emb (ix2 k q)) = _
  refine congrArg _ (funext fun a => Fin.ext ?_)
  obtain ⟨-, -, -, -, -, -, -, -, -, -, e0, e1, -⟩ := idx_facts t
  match a with
  | ⟨0, _⟩ => show win1_5.index t (0 : Fin 2) * 64 + 1 * k.val = k.val; omega
  | ⟨1, _⟩ => show win1_5.index t (1 : Fin 2) * 128 + 1 * q.val = q.val; omega

/-- The bias row's block at any point is the whole row. -/
theorem b_blk (c : Dev nD) (t : Fin cfg1.N) (q : Fin 128) :
    iblk1 V c 6 t (ix2 (0 : Fin 1) q) = V c main_v23 (ix2 (0 : Fin 1) q) := by
  show V c main_v23 (((cfg1.win 6).blk t).view.emb (ix2 (0 : Fin 1) q)) = _
  refine congrArg _ (funext fun a => Fin.ext ?_)
  obtain ⟨-, -, -, -, -, -, -, -, -, -, -, -, e0, e1, -⟩ := idx_facts t
  match a with
  | ⟨0, _⟩ => show win1_6.index t (0 : Fin 2) * 1 + 1 * 0 = 0; omega
  | ⟨1, _⟩ => show win1_6.index t (1 : Fin 2) * 128 + 1 * q.val = q.val; omega

/-- Entry (p, q) of the output's block at point `t` sits at (2000·t + p, q) of the output array. -/
theorem out_emb (t : Fin cfg1.N) (p : Fin 2000) (q : Fin 128) :
    ((cfg1.win 7).blk t).view.emb (ix2 p q) = ix2 (row t p) q := by
  refine funext fun a => Fin.ext ?_
  obtain ⟨-, -, -, -, -, -, -, -, -, -, -, -, -, -, e0, e1⟩ := idx_facts t
  match a with
  | ⟨0, _⟩ => show win1_7.index t (0 : Fin 2) * 2000 + 1 * p.val = 2000 * t.val + p.val; omega
  | ⟨1, _⟩ => show win1_7.index t (1 : Fin 2) * 128 + 1 * q.val = q.val; omega

/-- What point `t` writes back is block `t` of the readout of the arrays the region finds. -/
theorem flushed_eq (c : Dev nD) (t : Fin cfg1.N) :
    (dat1 V c).flushed 7 t = ((cfg1.win 7).blk t).view.read (Elt Ideal)
      (Cert.Readout.readout (V c main_v7) (V c main_v16) (V c main_arg2) (V c main_v18) (V c main_v20) (V c main_v22)
        (V c main_v23)) := by
  show (cfg1.win 7).cut (grid1.coords t) ((dat1 V c).after 7 t) = _
  rw [after1_7]
  unfold out1_7
  rw [View.canon_unit_zero hz]
  simp only [View.ld_unit_zero (S := S2000x128) hz, View.ld_unit_zero (S := S2000x64) hz,
    View.ld_unit_zero (S := S128x128) hz, View.ld_unit_zero (S := S64x128) hz, View.ld_unit_zero (S := S1x128) hz]
  rw [Body.readout_body]
  funext j
  obtain ⟨p, q, rfl⟩ : ∃ (p : Fin 2000) (q : Fin 128), j = ix2 p q := ⟨j 0, j 1, eq_ix2 j⟩
  show Cert.Readout.readout (M := 2000) (iblk1 V c 0 t) (iblk1 V c 1 t) (iblk1 V c 2 t) (iblk1 V c 3 t) (iblk1 V c 4 t)
      (iblk1 V c 5 t) (iblk1 V c 6 t) (ix2 p q)
    = Cert.Readout.readout (M := 50000) (V c main_v7) (V c main_v16) (V c main_arg2) (V c main_v18) (V c main_v20)
        (V c main_v22) (V c main_v23) (((cfg1.win 7).blk t).view.emb (ix2 p q))
  rw [out_emb t p q]
  exact Cert.Readout.readout_rows (M := 2000) (M' := 50000) _ _ _ _ _ _ (row t) _ _ _ _ _ _ _ _
    (z1_blk V c t) (z2_blk V c t) (g_blk V c t) (wa_blk V c t) (wb_blk V c t) (wc_blk V c t) (b_blk V c t) p q

/-- An index of the output array is in point `t`'s block iff each coordinate is in the block's range on its axis. -/
theorem mem_blk (t : Fin cfg1.N) (i : S50000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v24).slice (win1_7.rect t)).set ↔ _
  rw [View.set_slice_whole, Rect.mem_set_unit]
  exact Iff.rfl

/-- Every index of the output array is in some point's block: row r is in block r / 2000. -/
theorem cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have ht : (i 0).val / 2000 < 25 := by omega
  refine ⟨⟨(i 0).val / 2000, ht⟩, flush1_7 _, ?_⟩
  rw [mem_blk]
  obtain ⟨-, -, -, -, -, -, -, -, -, -, -, -, -, -, e0, e1⟩ := idx_facts ⟨(i 0).val / 2000, ht⟩
  have e0' : win1_7.index ⟨(i 0).val / 2000, ht⟩ (0 : Fin 2) = (i 0).val / 2000 := e0
  intro a
  match a with
  | ⟨0, _⟩ =>
    show win1_7.index ⟨(i 0).val / 2000, ht⟩ (0 : Fin 2) * 2000 ≤ (i 0).val
      ∧ (i 0).val < win1_7.index ⟨(i 0).val / 2000, ht⟩ (0 : Fin 2) * 2000 + 2000
    omega
  | ⟨1, _⟩ =>
    show win1_7.index ⟨(i 0).val / 2000, ht⟩ (1 : Fin 2) * 128 ≤ (i 1).val
      ∧ (i 1).val < win1_7.index ⟨(i 0).val / 2000, ht⟩ (1 : Fin 2) * 128 + 128
    omega

/-- After the region the output array is the readout of the arrays the region found. -/
theorem result (c : Dev nD) :
    (dat1 V c).arrAt 7 cfg1.N
      = Cert.Readout.readout (V c main_v7) (V c main_v16) (V c main_arg2) (V c main_v18) (V c main_v20) (V c main_v22)
          (V c main_v23) :=
  (dat1 V c).arrAt_eq_of_cover 7 _ (fun t _ => flushed_eq V c t) cover

end Cert.KernelIdeal.Region1

end
-- ==== Proof.HostReads.lean ====
/- What the host operations around the two kernel regions leave in the buffers the regions and the later operations
   read, each as a term of what the stretch was entered with.

   Before the first region: the two weights transposed, the two biases viewed as rows, the input untouched. Between
   the regions: the scatter-add of the first region's output into zeros at the segment ids, the same scatter-add of
   ones (the segment sizes), the quotient by the larger of each size and one, the three column ranges of the last
   weight transposed, the last bias viewed as a row; the arguments themselves untouched. -/
import proofs.«135154_j30365418783528_1_alg».proof.Proof.Gen.KernelIdeal.Frame
import Idealize.ShloMosaic.Lib.StableHlo.Run
import Idealize.ShloMosaic.PureOps.Ideal

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the first region -/

/-- The input is untouched. -/
theorem V1_arg0 (c : Dev nD) : V1 m ρ c main_arg0 = m ((c : Thread nD τ).loc main_arg0) := by
  show StableHlo.after hostOps0 (W0 m ρ c) (Proc.devRef .tc main_arg0) = _
  after_results <;> rfl

/-- The first weight, transposed. -/
theorem V1_v0 (c : Dev nD) : V1 m ρ c main_v0 = transpose S128x128 [1, 0] (m ((c : Thread nD τ).loc main_arg3)) transposes_S128x128_S128x128_1_0 := by
  show StableHlo.after hostOps0 (W0 m ρ c) (Proc.devRef .tc main_v0) = _
  after_results <;> rfl

/-- The first bias, as a row. -/
theorem V1_v2 (c : Dev nD) : V1 m ρ c main_v2 = shapeCast S1x128 (m ((c : Thread nD τ).loc main_arg4)) shapeCasts_S128_S1x128 := by
  show StableHlo.after hostOps0 (W0 m ρ c) (Proc.devRef .tc main_v2) = _
  after_results <;> rfl

/-- The second weight, transposed. -/
theorem V1_v1 (c : Dev nD) : V1 m ρ c main_v1 = transpose S128x128 [1, 0] (m ((c : Thread nD τ).loc main_arg5)) transposes_S128x128_S128x128_1_0 := by
  show StableHlo.after hostOps0 (W0 m ρ c) (Proc.devRef .tc main_v1) = _
  after_results <;> rfl

/-- The second bias, as a row. -/
theorem V1_v3 (c : Dev nD) : V1 m ρ c main_v3 = shapeCast S1x128 (m ((c : Thread nD τ).loc main_arg6)) shapeCasts_S128_S1x128 := by
  show StableHlo.after hostOps0 (W0 m ρ c) (Proc.devRef .tc main_v3) = _
  after_results <;> rfl

/-- The segment ids are untouched. -/
theorem W1_arg1 (c : Dev nD) : W1 m ρ c (Proc.devRef .tc main_arg1) = m ((c : Thread nD τ).loc main_arg1) := by
  show StableHlo.after hostOps0 (W0 m ρ c) (Proc.devRef .tc main_arg1) = _
  after_results <;> rfl

/-- The per-segment features are untouched. -/
theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl

/-- The last weight is untouched. -/
theorem W1_arg7 (c : Dev nD) : W1 m ρ c (Proc.devRef .tc main_arg7) = m ((c : Thread nD τ).loc main_arg7) := by
  show StableHlo.after hostOps0 (W0 m ρ c) (Proc.devRef .tc main_arg7) = _
  after_results <;> rfl

/-- The last bias is untouched. -/
theorem W1_arg8 (c : Dev nD) : W1 m ρ c (Proc.devRef .tc main_arg8) = m ((c : Thread nD τ).loc main_arg8) := by
  show StableHlo.after hostOps0 (W0 m ρ c) (Proc.devRef .tc main_arg8) = _
  after_results <;> rfl

/-! ## Across the first region: a buffer that is none of its arrays keeps its contents -/

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)

/-! ## Between the regions -/

/-- The segment sums: the first region's output scattered and added into zeros at the segment ids. -/
theorem V3_v7 (c : Dev nD) : V3 m ρ c main_v7 = Host.scatterAdd (F := Ideal) scatter_S50000x128_S1000000x1_S1000000x128_1_0_0_1
      (broadcastInDim S50000x128 ![] bcast_S_S50000x128 (constant (F := Ideal) S_ .f32 0x00000000#32))
      (broadcastInDim S1000000x1 ![0] bcast_S1000000_S1000000x1_0 (W2 m ρ c (Proc.devRef .tc main_arg1)))
      (W2 m ρ c (Proc.devRef .tc main_v4)) := by
  show StableHlo.after hostOps1 (W2 m ρ c) (Proc.devRef .tc main_v7) = _
  after_results <;> rfl

/-- The segment means: the sums over the larger of each segment's size and one. -/
theorem V3_v16 (c : Dev nD) : V3 m ρ c main_v16 = Host.divf (F := Ideal)
      (Host.scatterAdd (F := Ideal) scatter_S50000x128_S1000000x1_S1000000x128_1_0_0_1
        (broadcastInDim S50000x128 ![] bcast_S_S50000x128 (constant (F := Ideal) S_ .f32 0x00000000#32))
        (broadcastInDim S1000000x1 ![0] bcast_S1000000_S1000000x1_0 (W2 m ρ c (Proc.devRef .tc main_arg1)))
        (W2 m ρ c (Proc.devRef .tc main_v4)))
      (broadcastInDim S50000x128 ![0, 1] bcast_S50000x1_S50000x128_0_1 (broadcastInDim S50000x1 ![0] bcast_S50000_S50000x1_0
        (maximumf (F := Ideal)
          (Host.scatterAdd (F := Ideal) scatter_S50000_S1000000x1_S1000000_n_0_0_1
            (broadcastInDim S50000 ![] bcast_S_S50000 (constant (F := Ideal) S_ .f32 0x00000000#32))
            (broadcastInDim S1000000x1 ![0] bcast_S1000000_S1000000x1_0 (W2 m ρ c (Proc.devRef .tc main_arg1)))
            (broadcastInDim S1000000 ![] bcast_S_S1000000 (constant (F := Ideal) S_ .f32 0x3F800000#32)))
          (broadcastInDim S50000 ![] bcast_S_S50000 (constant (F := Ideal) S_ .f32 0x3F800000#32))))) := by
  show StableHlo.after hostOps1 (W2 m ρ c) (Proc.devRef .tc main_v16) = _
  after_results <;> rfl

/-- The per-segment features are untouched. -/
theorem V3_arg2 (c : Dev nD) : V3 m ρ c main_arg2 = W2 m ρ c (Proc.devRef .tc main_arg2) := by
  show StableHlo.after hostOps1 (W2 m ρ c) (Proc.devRef .tc main_arg2) = _
  after_results <;> rfl

/-- Columns 0 to 127 of the last weight, transposed. -/
theorem V3_v18 (c : Dev nD) : V3 m ρ c main_v18 = transpose S128x128 [1, 0] (extractStridedSlice S128x128 ![0, 0] (W2 m ρ c (Proc.devRef .tc main_arg7)) slices_S128x320_S128x128_0_0) transposes_S128x128_S128x128_1_0 := by
  show StableHlo.after hostOps1 (W2 m ρ c) (Proc.devRef .tc main_v18) = _
  after_results <;> rfl

/-- Columns 128 to 255 of the last weight, transposed. -/
theorem V3_v20 (c : Dev nD) : V3 m ρ c main_v20 = transpose S128x128 [1, 0] (extractStridedSlice S128x128 ![0, 128] (W2 m ρ c (Proc.devRef .tc main_arg7)) slices_S128x320_S128x128_0_128) transposes_S128x128_S128x128_1_0 := by
  show StableHlo.after hostOps1 (W2 m ρ c) (Proc.devRef .tc main_v20) = _
  after_results <;> rfl

/-- Columns 256 to 319 of the last weight, transposed. -/
theorem V3_v22 (c : Dev nD) : V3 m ρ c main_v22 = transpose S64x128 [1, 0] (extractStridedSlice S128x64 ![0, 256] (W2 m ρ c (Proc.devRef .tc main_arg7)) slices_S128x320_S128x64_0_256) transposes_S128x64_S64x128_1_0 := by
  show StableHlo.after hostOps1 (W2 m ρ c) (Proc.devRef .tc main_v22) = _
  after_results <;> rfl

/-- The last bias, as a row. -/
theorem V3_v23 (c : Dev nD) : V3 m ρ c main_v23 = shapeCast S1x128 (W2 m ρ c (Proc.devRef .tc main_arg8)) shapeCasts_S128_S1x128 := by
  show StableHlo.after hostOps1 (W2 m ρ c) (Proc.devRef .tc main_v23) = _
  after_results <;> rfl

end Cert.KernelIdeal.Host

end
-- ==== Proof.KernelValue.lean ====
/- The kernel program's result is `out` of its nine arguments.

   The result buffer after the run holds the second region's output array; that array is the readout of what the
   region found; what it found are the host operations' terms over the first region's output array; and that is the
   gated projection of what the first region found, the host operations' terms over the arguments. -/
import proofs.«135154_j30365418783528_1_alg».proof.Proof.OutDef
import proofs.«135154_j30365418783528_1_alg».proof.Proof.Region0
import proofs.«135154_j30365418783528_1_alg».proof.Proof.Region1
import proofs.«135154_j30365418783528_1_alg».proof.Proof.HostReads
import proofs.«135154_j30365418783528_1_alg».proof.Proof.KernelRun

noncomputable section

namespace Cert.KernelIdeal.Out

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The first region's output array, as the host operations after it find it. -/
theorem first_output (c : Dev nD) :
    W2 m ρ c (Proc.devRef .tc main_v4) = hidden (m ((c : Thread nD τ).loc main_arg0)) (m ((c : Thread nD τ).loc main_arg3))
      (m ((c : Thread nD τ).loc main_arg4)) (m ((c : Thread nD τ).loc main_arg5)) (m ((c : Thread nD τ).loc main_arg6)) := by
  refine (W2_arr m ρ c 5).trans ((Region0.result (V1 m ρ) c).trans ?_)
  rw [Host.V1_arg0, Host.V1_v0, Host.V1_v2, Host.V1_v1, Host.V1_v3]
  rfl

/-- The result buffer's contents at the last boundary. -/
theorem result (c : Dev nD) :
    W4 m ρ c (Proc.devRef .tc main_v24) = out (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) := by
  refine (W4_arr m ρ c 7).trans ((Region1.result (V3 m ρ) c).trans ?_)
  rw [Host.V3_v7, Host.V3_v16, Host.V3_arg2, Host.V3_v18, Host.V3_v20, Host.V3_v22, Host.V3_v23,
    Host.W2_arg1, Host.W2_arg2, Host.W2_arg7, Host.W2_arg8, first_output]
  rfl

/-- The kernel program's run with its result read: every weakly fair execution terminates without a fault, the result
    is `out` of the arguments, and the arguments are as launched. -/
theorem run : θ_run defs (onTc (τ := τ) (main (F := Ideal))) ⟨m, fun _ => 0, ρ⟩ (fun r => ∀ c : Dev nD,
      r.2.mem ((c.tc : Thread nD τ).loc main_v24) = out (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result m ρ c), (h c).2⟩) (Run.run_named m ρ)

end Cert.KernelIdeal.Out

end
-- ==== Proof.RefHidden.lean ====
/- The reference's gated stage, its segment sums and its segment means are the kernel program's.

   At row p and column q the reference's product of the input with a transposed weight is the sum over k of
   x (p, k) · Wᵀ (k, q), the same sum the kernel's blocks add up; its bias, broadcast first to a row and then over the
   rows, reads entry q, as the kernel's bias row does. The reference spells the logistic function as 1 / (1 + e⁻ʸ)
   with the host's quotient and exponential: on the extended reals that is the logistic function's definition. So the
   two gated arrays are equal, and the scatter-adds and the quotient applied to them are the same operations. -/
import proofs.«135154_j30365418783528_1_alg».proof.Proof.Gen.ReferenceIdeal.Read
import proofs.«135154_j30365418783528_1_alg».proof.Proof.OutDef
import proofs.«135154_j30365418783528_1_alg».proof.Proof.LibDotPlain
import Idealize.ShloMosaic.Lib.ValueLayout
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx Idealize.ShloMosaic.TcCoe
open scoped BigOperators

/-- The pattern of `1.0` denotes the real 1. -/
theorem one_f32 : Ideal.ofBits .f32 0x3F800000#32 = 1 := by
  simp [Ideal.ofBits, Ideal.ieee, -EReal.coe_mul]; norm_num

/-- The host's product of the input with a 128 × 128 matrix, at row `p` and column `q`. -/
theorem dot_rows (l : FVec Ideal S1000000x128 .f32) (r : FVec Ideal S128x128 .f32) (p : Fin 1000000) (q : Fin 128) :
    Host.dotGeneral (F := Ideal) dot_S1000000x128_S128x128_S1000000x128_1_0_0_1_n_n none l r (ix2 p q)
      = ∑ k : Fin 128, l (ix2 p k) * r (ix2 k q) :=
  Cert.DotPlain.dotGeneral_rows_cols dot_S1000000x128_S128x128_S1000000x128_1_0_0_1_n_n rfl rfl rfl rfl rfl rfl none _ l r p q

/-- A bias broadcast to a row and then over the rows reads, at (p, q), its entry q. -/
theorem bias_rows (b : FVec Ideal S128 .f32) (p : Fin 1000000) (q : Fin 128) :
    broadcastInDim S1000000x128 ![0, 1] bcast_S1x128_S1000000x128_0_1 (broadcastInDim S1x128 ![1] bcast_S128_S1x128_1 b) (ix2 p q)
      = b (ix1 q) :=
  (broadcastInDim_apply _ _ _ (ix2 p q) (ix2 (0 : Fin 1) q) (fun a => match a with
    | ⟨0, _⟩ => by show 0 = if (1 : ℕ) = 1 then 0 else p.val; rw [if_pos rfl]
    | ⟨1, _⟩ => by show q.val = if (128 : ℕ) = 1 then 0 else q.val; rw [if_neg (by decide)])).trans
  (broadcastInDim_apply _ _ _ (ix2 (0 : Fin 1) q) (ix1 q) (fun a => match a with
    | ⟨0, _⟩ => by show q.val = if (128 : ℕ) = 1 then 0 else q.val; rw [if_neg (by decide)]))

/-- The literal `1.0` broadcast over the array reads 1 everywhere. -/
theorem ones_apply (i : S1000000x128.Idx) :
    broadcastInDim S1000000x128 ![] bcast_S_S1000000x128 (constant (F := Ideal) S_ .f32 0x3F800000#32) i = 1 :=
  (broadcastInDim_apply _ _ _ i ix0 (fun a => a.elim0)).trans one_f32

/-- The reference's gated array is the kernel program's. -/
theorem ref_hidden (x0 : (⟨S1000000x128, .f32⟩ : BufTy).Contents (Elt Ideal)) (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v16 (F := Ideal) x0 x3 x4 x5 x6 = Cert.KernelIdeal.Out.hidden x0 x3 x4 x5 x6 := by
  funext j
  obtain ⟨p, q, rfl⟩ : ∃ (p : Fin 1000000) (q : Fin 128), j = ix2 p q := ⟨j 0, j 1, eq_ix2 j⟩
  unfold Cert.KernelIdeal.Out.hidden
  rw [Cert.Readout.gated_ix2]
  unfold Cert.Readout.aff val_main_v16 val_main_v4 val_main_v15 val_main_v1 val_main_v3 val_main_v2 val_main_v0 val_main_v14
    val_main_v13 val_main_v12 val_main_v11 val_main_v10 val_main_v9 val_main_v6 val_main_v8 val_main_v7 val_main_v5
    val_main_cst val_main_cst_0
  show (Host.dotGeneral (F := Ideal) dot_S1000000x128_S128x128_S1000000x128_1_0_0_1_n_n none x0 _ (ix2 p q)
        + broadcastInDim S1000000x128 ![0, 1] bcast_S1x128_S1000000x128_0_1 (broadcastInDim S1x128 ![1] bcast_S128_S1x128_1 x4) (ix2 p q))
      * Ideal.div (broadcastInDim S1000000x128 ![] bcast_S_S1000000x128 (constant (F := Ideal) S_ .f32 0x3F800000#32) (ix2 p q))
          (broadcastInDim S1000000x128 ![] bcast_S_S1000000x128 (constant (F := Ideal) S_ .f32 0x3F800000#32) (ix2 p q)
            + Ideal.exp (-(Host.dotGeneral (F := Ideal) dot_S1000000x128_S128x128_S1000000x128_1_0_0_1_n_n none x0 _ (ix2 p q)
              + broadcastInDim S1000000x128 ![0, 1] bcast_S1x128_S1000000x128_0_1 (broadcastInDim S1x128 ![1] bcast_S128_S1x128_1 x6) (ix2 p q)))) = _
  rw [dot_rows, dot_rows, bias_rows, bias_rows, ones_apply, shapeCast_a_1a_apply, shapeCast_a_1a_apply]
  rfl

/-- The reference's segment sums are the kernel program's. -/
theorem ref_segSum (x0 : (⟨S1000000x128, .f32⟩ : BufTy).Contents (Elt Ideal)) (x1 : (⟨S1000000, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal)) (x6 : (⟨S128, .f32⟩ : BufTy).Contents (Elt Ideal)) :
    val_main_v19 (F := Ideal) x0 x1 x3 x4 x5 x6
      = Cert.KernelIdeal.Out.segSum x1 (Cert.KernelIdeal.Out.hidden x0 x3 x4 x5 x6) := by
  unfold val_main_v19
  rw [ref_hidden]
  rfl

/-- The reference's segment means are the kernel program's. -/
theorem ref_segMean (x0 : (⟨S1000000x128, .f32⟩ : BufTy).Contents (Elt Ideal)) (x1 : (⟨S1000000, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal)) (x6 : (⟨S128, .f32⟩ : BufTy).Contents (Elt Ideal)) :
    val_main_v28 (F := Ideal) x0 x1 x3 x4 x5 x6
      = Cert.KernelIdeal.Out.segMean x1 (Cert.KernelIdeal.Out.hidden x0 x3 x4 x5 x6) := by
  unfold val_main_v28
  rw [ref_segSum]
  rfl

end Cert.ReferenceIdeal.RefValue

end
-- ==== Proof.RefReadout.lean ====
/- The reference's last stage is the kernel program's readout.

   The reference joins the segment sums, the segment means and the per-segment features side by side into 320 columns
   and multiplies by the last weight transposed: at row p and column q that is the sum over all 320 positions k of the
   joined row's entry k times W (q, k). The first 128 positions read the sums, the next 128 the means, the last 64 the
   features; and column k of each of the three column ranges the kernel program cuts out of the weight is that same
   column of the whole weight. A sum over 320 positions is the sum of its three runs, so the reference's one product
   is the kernel program's three partial products added in order. Bias and clamp are the same on both sides. -/
import proofs.«135154_j30365418783528_1_alg».proof.Proof.Gen.ReferenceIdeal.Read
import proofs.«135154_j30365418783528_1_alg».proof.Proof.OutDef
import proofs.«135154_j30365418783528_1_alg».proof.Proof.LibDotPlain
import Idealize.ShloMosaic.Lib.ValueLayout
import Idealize.ShloMosaic.Lib.Pipeline.Value

noncomputable section

namespace Cert.ReferenceIdeal.RefReadout

open Cert.ReferenceIdeal Cert.ReferenceIdeal.Gen Cert.ReferenceIdeal.Read Idealize.ShloMosaic Idealize.ShloMosaic.ValueIdx Idealize.ShloMosaic.TcCoe
open Cert.Readout (colA colB colC)
open scoped BigOperators

/-- The host's product of a 50000 × 320 array with a 320 × 128 matrix, at row `p` and column `q`. -/
theorem dot_320 (l : FVec Ideal S50000x320 .f32) (r : FVec Ideal S320x128 .f32) (p : Fin 50000) (q : Fin 128) :
    Host.dotGeneral (F := Ideal) dot_S50000x320_S320x128_S50000x128_1_0_0_1_n_n none l r (ix2 p q)
      = ∑ k : Fin 320, l (ix2 p k) * r (ix2 k q) :=
  Cert.DotPlain.dotGeneral_rows_cols dot_S50000x320_S320x128_S50000x128_1_0_0_1_n_n rfl rfl rfl rfl rfl rfl none _ l r p q

/-- A bias broadcast to a row and then over the rows reads, at (p, q), its entry q. -/
theorem bias_rows (b : FVec Ideal S128 .f32) (p : Fin 50000) (q : Fin 128) :
    broadcastInDim S50000x128 ![0, 1] bcast_S1x128_S50000x128_0_1 (broadcastInDim S1x128 ![1] bcast_S128_S1x128_1 b) (ix2 p q)
      = b (ix1 q) :=
  (broadcastInDim_apply _ _ _ (ix2 p q) (ix2 (0 : Fin 1) q) (fun a => match a with
    | ⟨0, _⟩ => by show 0 = if (1 : ℕ) = 1 then 0 else p.val; rw [if_pos rfl]
    | ⟨1, _⟩ => by show q.val = if (128 : ℕ) = 1 then 0 else q.val; rw [if_neg (by decide)])).trans
  (broadcastInDim_apply _ _ _ (ix2 (0 : Fin 1) q) (ix1 q) (fun a => match a with
    | ⟨0, _⟩ => by show q.val = if (128 : ℕ) = 1 then 0 else q.val; rw [if_neg (by decide)]))

/-- The literal `0.0` broadcast over the array reads that literal everywhere. -/
theorem zeros_apply (i : S50000x128.Idx) :
    broadcastInDim S50000x128 ![] bcast_S_S50000x128 (constant (F := Ideal) S_ .f32 0x00000000#32) i
      = Ideal.ofBits .f32 0x00000000#32 :=
  broadcastInDim_apply _ _ _ i ix0 (fun a => a.elim0)

/-! ## The joined row, run by run -/

/-- Positions 0 to 127 of the joined row read the first array. -/
theorem cat_A (Z1 Z2 : (⟨S50000x128, .f32⟩ : BufTy).Contents (Elt Ideal)) (g : (⟨S50000x64, .f32⟩ : BufTy).Contents (Elt Ideal)) (p : Fin 50000) (k : Fin 128) :
    concatenate S50000x320 1 [⟨S50000x128, Z1⟩, ⟨S50000x128, Z2⟩, ⟨S50000x64, g⟩] concatenates_S50000x128_S50000x128_S50000x64_S50000x320_d1 (ix2 p (colA k)) = Z1 (ix2 p k) :=
  concatenate_apply_piece 1 [⟨S50000x128, Z1⟩, ⟨S50000x128, Z2⟩, ⟨S50000x64, g⟩] _ (ix2 p (colA k)) 0 (by show (0 : ℕ) < 3; decide) S50000x128 Z1 rfl rfl 0 rfl (ix2 p k)
    (fun b hb => match b with
      | ⟨0, _⟩ => rfl
      | ⟨1, _⟩ => absurd rfl hb)
    (Nat.zero_add _)

/-- Positions 128 to 255 read the second array. -/
theorem cat_B (Z1 Z2 : (⟨S50000x128, .f32⟩ : BufTy).Contents (Elt Ideal)) (g : (⟨S50000x64, .f32⟩ : BufTy).Contents (Elt Ideal)) (p : Fin 50000) (k : Fin 128) :
    concatenate S50000x320 1 [⟨S50000x128, Z1⟩, ⟨S50000x128, Z2⟩, ⟨S50000x64, g⟩] concatenates_S50000x128_S50000x128_S50000x64_S50000x320_d1 (ix2 p (colB k)) = Z2 (ix2 p k) :=
  concatenate_apply_piece 1 [⟨S50000x128, Z1⟩, ⟨S50000x128, Z2⟩, ⟨S50000x64, g⟩] _ (ix2 p (colB k)) 1 (by show (1 : ℕ) < 3; decide) S50000x128 Z2 rfl rfl 128 rfl (ix2 p k)
    (fun b hb => match b with
      | ⟨0, _⟩ => rfl
      | ⟨1, _⟩ => absurd rfl hb)
    rfl

/-- Positions 256 to 319 read the third array. -/
theorem cat_C (Z1 Z2 : (⟨S50000x128, .f32⟩ : BufTy).Contents (Elt Ideal)) (g : (⟨S50000x64, .f32⟩ : BufTy).Contents (Elt Ideal)) (p : Fin 50000) (k : Fin 64) :
    concatenate S50000x320 1 [⟨S50000x128, Z1⟩, ⟨S50000x128, Z2⟩, ⟨S50000x64, g⟩] concatenates_S50000x128_S50000x128_S50000x64_S50000x320_d1 (ix2 p (colC k)) = g (ix2 p k) :=
  concatenate_apply_piece 1 [⟨S50000x128, Z1⟩, ⟨S50000x128, Z2⟩, ⟨S50000x64, g⟩] _ (ix2 p (colC k)) 2 (by show (2 : ℕ) < 3; decide) S50000x64 g rfl rfl 256 rfl (ix2 p k)
    (fun b hb => match b with
      | ⟨0, _⟩ => rfl
      | ⟨1, _⟩ => absurd rfl hb)
    rfl

/-! ## The weight, whole and in its three column ranges -/

/-- The transposed weight at (k, q) is the weight at (q, k). -/
theorem wT_apply (W : (⟨S128x320, .f32⟩ : BufTy).Contents (Elt Ideal)) (k : Fin 320) (q : Fin 128) :
    transpose S320x128 [1, 0] W transposes_S128x320_S320x128_1_0 (ix2 k q) = W (ix2 q k) :=
  transpose_ix2_apply W _ k q

/-- Columns 0 to 127 of the weight, transposed, at (k, q): the weight at (q, k). -/
theorem wa_apply (W : (⟨S128x320, .f32⟩ : BufTy).Contents (Elt Ideal)) (k q : Fin 128) :
    transpose Cert.KernelIdeal.S128x128 [1, 0] (extractStridedSlice Cert.KernelIdeal.S128x128 ![0, 0] W Cert.KernelIdeal.Gen.slices_S128x320_S128x128_0_0)
      Cert.KernelIdeal.Gen.transposes_S128x128_S128x128_1_0 (ix2 k q) = W (ix2 q (colA k)) :=
  (transpose_ix2_apply _ _ k q).trans (slice2_axis1_apply 0 W _ q k (colA k) (Nat.zero_add _).symm)

/-- Columns 128 to 255 of the weight, transposed, at (k, q): the weight at (q, 128 + k). -/
theorem wb_apply (W : (⟨S128x320, .f32⟩ : BufTy).Contents (Elt Ideal)) (k q : Fin 128) :
    transpose Cert.KernelIdeal.S128x128 [1, 0] (extractStridedSlice Cert.KernelIdeal.S128x128 ![0, 128] W Cert.KernelIdeal.Gen.slices_S128x320_S128x128_0_128)
      Cert.KernelIdeal.Gen.transposes_S128x128_S128x128_1_0 (ix2 k q) = W (ix2 q (colB k)) :=
  (transpose_ix2_apply _ _ k q).trans (slice2_axis1_apply 128 W _ q k (colB k) rfl)

/-- Columns 256 to 319 of the weight, transposed, at (k, q): the weight at (q, 256 + k). -/
theorem wc_apply (W : (⟨S128x320, .f32⟩ : BufTy).Contents (Elt Ideal)) (k : Fin 64) (q : Fin 128) :
    transpose Cert.KernelIdeal.S64x128 [1, 0] (extractStridedSlice Cert.KernelIdeal.S128x64 ![0, 256] W Cert.KernelIdeal.Gen.slices_S128x320_S128x64_0_256)
      Cert.KernelIdeal.Gen.transposes_S128x64_S64x128_1_0 (ix2 k q) = W (ix2 q (colC k)) :=
  (transpose_ix2_apply _ _ k q).trans (slice2_axis1_apply 256 W _ q k (colC k) rfl)

/-! ## The last stage -/

/-- The reference's product, bias and clamp are the kernel program's readout. -/
theorem ref_readout (Z1 Z2 : (⟨S50000x128, .f32⟩ : BufTy).Contents (Elt Ideal)) (g : (⟨S50000x64, .f32⟩ : BufTy).Contents (Elt Ideal)) (x7 : (⟨S128x320, .f32⟩ : BufTy).Contents (Elt Ideal)) (x8 : (⟨S128, .f32⟩ : BufTy).Contents (Elt Ideal)) :
    maximumf (F := Ideal)
      (addf (Host.dotGeneral (F := Ideal) dot_S50000x320_S320x128_S50000x128_1_0_0_1_n_n none
          (concatenate S50000x320 1 [⟨S50000x128, Z1⟩, ⟨S50000x128, Z2⟩, ⟨S50000x64, g⟩] concatenates_S50000x128_S50000x128_S50000x64_S50000x320_d1 : FVec Ideal S50000x320 .f32)
          (transpose S320x128 [1, 0] x7 transposes_S128x320_S320x128_1_0 : FVec Ideal S320x128 .f32))
        (broadcastInDim S50000x128 ![0, 1] bcast_S1x128_S50000x128_0_1 (broadcastInDim S1x128 ![1] bcast_S128_S1x128_1 x8)))
      (broadcastInDim S50000x128 ![] bcast_S_S50000x128 (constant (F := Ideal) S_ .f32 0x00000000#32))
    = Cert.KernelIdeal.Out.readoutOf Z1 Z2 g x7 x8 := by
  funext j
  obtain ⟨p, q, rfl⟩ : ∃ (p : Fin 50000) (q : Fin 128), j = ix2 p q := ⟨j 0, j 1, eq_ix2 j⟩
  unfold Cert.KernelIdeal.Out.readoutOf
  rw [Cert.Readout.readout_ix2]
  unfold Cert.Readout.readoutAt
  show max (Host.dotGeneral (F := Ideal) dot_S50000x320_S320x128_S50000x128_1_0_0_1_n_n none _ _ (ix2 p q)
      + broadcastInDim S50000x128 ![0, 1] bcast_S1x128_S50000x128_0_1 (broadcastInDim S1x128 ![1] bcast_S128_S1x128_1 x8) (ix2 p q))
    (broadcastInDim S50000x128 ![] bcast_S_S50000x128 (constant (F := Ideal) S_ .f32 0x00000000#32) (ix2 p q)) = _
  rw [dot_320, bias_rows, zeros_apply, Cert.Readout.sum_320, shapeCast_a_1a_apply]
  -- the three runs term by term: the joined row's entry and the weight's column on each side
  refine congrArg₂ max (congrArg₂ (· + ·) (congrArg₂ (· + ·) (congrArg₂ (· + ·)
    (Finset.sum_congr rfl fun k _ => ?_) (Finset.sum_congr rfl fun k _ => ?_)) (Finset.sum_congr rfl fun k _ => ?_)) rfl) rfl
  · exact congrArg₂ (· * ·) (cat_A Z1 Z2 g p k) ((wT_apply x7 (colA k) q).trans (wa_apply x7 k q).symm)
  · exact congrArg₂ (· * ·) (cat_B Z1 Z2 g p k) ((wT_apply x7 (colB k) q).trans (wb_apply x7 k q).symm)
  · exact congrArg₂ (· * ·) (cat_C Z1 Z2 g p k) ((wT_apply x7 (colC k) q).trans (wc_apply x7 k q).symm)

end Cert.ReferenceIdeal.RefReadout

end
-- ==== Proof.RefValue.lean ====
/- The reference's result is `out` of its nine arguments: its gated stage, segment sums and segment means are the kernel
   program's, and its last stage over them is the kernel program's readout. -/
import proofs.«135154_j30365418783528_1_alg».proof.Proof.RefHidden
import proofs.«135154_j30365418783528_1_alg».proof.Proof.RefReadout

noncomputable section

namespace Cert.ReferenceIdeal.RefValue

open Cert.ReferenceIdeal Cert.ReferenceIdeal.Gen Cert.ReferenceIdeal.Read Idealize.ShloMosaic Idealize.ShloMosaic.TcCoe

/-- The reference's result term, stage by stage, is the network as the kernel program computes it. -/
theorem result (x0 : (⟨S1000000x128, .f32⟩ : BufTy).Contents (Elt Ideal)) (x1 : (⟨S1000000, .i32⟩ : BufTy).Contents (Elt Ideal)) (x2 : (⟨S50000x64, .f32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S128x320, .f32⟩ : BufTy).Contents (Elt Ideal)) (x8 : (⟨S128, .f32⟩ : BufTy).Contents (Elt Ideal)) :
    val_main_v35 (F := Ideal) x0 x1 x2 x3 x4 x5 x6 x7 x8 = Cert.KernelIdeal.Out.out x0 x1 x2 x3 x4 x5 x6 x7 x8 := by
  unfold val_main_v35 val_main_v34 val_main_v33 val_main_v32 val_main_v31 val_main_v30 val_main_v29 val_main_call0_v0
    val_main_call0_cst Cert.KernelIdeal.Out.out
  rw [ref_segSum, ref_segMean]
  exact Cert.ReferenceIdeal.RefReadout.ref_readout _ _ _ _ _

end Cert.ReferenceIdeal.RefValue

end
-- ==== Proof.lean ====
/- A graph readout network: a gated projection of one million node rows, segment sums and segment means over fifty
   thousand graphs, and a linear readout with a clamp at zero.

   The kernel program computes the gated projection h = (x·W1ᵀ + b1) · logistic (x·W2ᵀ + b2) in a first kernel, 8000
   rows at a grid point; sums the rows of h by segment id and divides by the larger of each segment's size and one on
   the host; and in a second kernel, 2000 rows at a grid point, adds the three products of the sums, the means and the
   per-graph features with the matching column ranges of W3, adds b3 and keeps the larger of the result and zero. The
   reference computes h with the logistic function spelt 1 / (1 + e⁻ʸ), applies the same segment operations, joins
   sums, means and features into 320 columns and multiplies once by W3ᵀ.

   On the extended reals the two agree entry by entry, for every input: each kernel product into a zero accumulator is
   the plain sum over the contracted coordinate, as the host's product is; a kernel region's output array is the
   region's function of the whole arrays it reads, because that function reads its rows one at a time and the blocks
   tile the rows; 1 / (1 + e⁻ʸ) is the logistic function's definition; and a sum over 320 positions is the sum of its
   three runs of 128, 128 and 64, in any commutative monoid. No law used needs a finite operand, so the precondition
   is not opened.

   Both runs end with the result at one function `out` of the nine arguments (Proof/OutDef.lean): the kernel program's
   by the two regions' closed forms and the host operations read back (Proof/KernelValue.lean), the reference's by its
   run read stage by stage (Proof/RefValue.lean). The three frames are the programs' runs with the result dropped; the
   ideal pass rewrote nothing, so the idealization claim is trivial. -/
import proofs.«135154_j30365418783528_1_alg».proof.Defs
import proofs.«135154_j30365418783528_1_alg».proof.Proof.Gen.Kernel.Frame
import proofs.«135154_j30365418783528_1_alg».proof.Proof.Gen.KernelIdeal.Frame
import proofs.«135154_j30365418783528_1_alg».proof.Proof.Gen.ReferenceIdeal.Run
import proofs.«135154_j30365418783528_1_alg».proof.Proof.Gen.Pre_finite_inputs
import proofs.«135154_j30365418783528_1_alg».proof.Proof.KernelValue
import proofs.«135154_j30365418783528_1_alg».proof.Proof.RefValue

noncomputable section

namespace Cert.Proof

open Idealize.ShloMosaic Idealize.ShloMosaic.TcCoe Idealize.SL.Sem

/-- The kernel program as printed runs to the end without a fault and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- So does the reference: its run, with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the result at `out` of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Out.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8]
  exact (Cert.ReferenceIdeal.Read.val_main_v35_eq _ _ _ _ _ _ _ _ _).trans (Cert.ReferenceIdeal.RefValue.result _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
